-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S64x64x512 : Shape := ⟨3, ![64, 64, 512]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S64x64x512 : S_.BroadcastsInDim S64x64x512 (![] : Fin 0 → Fin S64x64x512.rank)
  reducesTo_S64x64x512_S_d0_1_2 : S64x64x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S4096x512 .f32) (main_arg1 : FVec F S64x64x512 .f32) (main_arg2 : FVec F S64x64x512 .f32) (main_arg3 : FVec F S4096x512 .f32) (main_arg4 : FVec F S512x512 .f32) (main_arg5 : FVec F S512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S64x64x512 .f32 := Host.absf main_arg1
  let main_cst_0 : FVec F S_ .f32 := constant S_ .f32 0x7F800000#32
  let main_v5 : FVec F S64x64x512 .f32 := broadcastInDim S64x64x512 ![] bcast_S_S64x64x512 main_cst_0
  let main_v6 : IVec S64x64x512 1 := cmpf .olt main_v4 main_v5
  let main_c_1 : IVec S_ 1 := constantI S_ 1 1#1
  let main_v7 : IVec S_ 1 := (fun x v => Host.reduce IntOp.andi x v reducesTo_S64x64x512_S_d0_1_2 h_S_) main_v6 main_c_1
  let main_v8 : IVec S_ 1 := andi main_v3 main_v7
  let main_v9 : FVec F S64x64x512 .f32 := Host.absf main_arg2
  let main_cst_2 : FVec F S_ .f32 := constant S_ .f32 0x7F800000#32
  let main_v10 : FVec F S64x64x512 .f32 := broadcastInDim S64x64x512 ![] bcast_S_S64x64x512 main_cst_2
  let main_v11 : IVec S64x64x512 1 := cmpf .olt main_v9 main_v10
  let main_c_3 : IVec S_ 1 := constantI S_ 1 1#1
  let main_v12 : IVec S_ 1 := (fun x v => Host.reduce IntOp.andi x v reducesTo_S64x64x512_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_v13 main_v16
-- ==== Kernel.lean ====
abbrev S4096x512 : Shape := ⟨2, ![4096, 512]⟩
abbrev S64x64x512 : Shape := ⟨3, ![64, 64, 512]⟩
abbrev S512x512 : Shape := ⟨2, ![512, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S64x64x512, .f32⟩
  | .hbm, ⟨2, _⟩ => ⟨S64x64x512, .f32⟩
  | .hbm, ⟨3, _⟩ => ⟨S4096x512, .f32⟩
  | .hbm, ⟨4, _⟩ => ⟨S512x512, .f32⟩
  | .hbm, ⟨5, _⟩ => ⟨S512x512, .f32⟩
  | .hbm, ⟨6, _⟩ => ⟨S512x512, .bf16⟩
  | .hbm, ⟨7, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S64x64x512 : Shape := ⟨3, ![64, 64, 512]⟩
abbrev S512x512 : Shape := ⟨2, ![512, 512]⟩
abbrev S_ : Shape := ⟨0, ![]⟩
abbrev S64x64x4096 : Shape := ⟨3, ![64, 64, 4096]⟩
abbrev S4096x64x64 : Shape := ⟨3, ![4096, 64, 64]⟩
abbrev S64x64 : Shape := ⟨2, ![64, 64]⟩
abbrev S1x64x64 : Shape := ⟨3, ![1, 64, 64]⟩

abbrev nBuf : Space → Nat
  | .hbm => 104
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S64x64x512, .f32⟩
  | .hbm, ⟨2, _⟩ => ⟨S64x64x512, .f32⟩
  | .hbm, ⟨3, _⟩ => ⟨S4096x512, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S_, .f32⟩
  | .hbm, ⟨8, _⟩ => ⟨S64x64x4096, .f32⟩
  | .hbm, ⟨9, _⟩ => ⟨S4096x64x64, .f32⟩
  | .hbm, ⟨10, _⟩ => ⟨S4096x64x64, .f32⟩
  | .hbm, ⟨11, _⟩ => ⟨S4096x64x64, .f32⟩
  | .hbm, ⟨12, _⟩ => ⟨S_, .f32⟩
  | .hbm, ⟨13, _⟩ => ⟨S64x64, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S1x64x64, .f32⟩
  | .hbm, ⟨18, _⟩ => ⟨S4096x64x64, .f32⟩
  | .hbm, ⟨19, _⟩ => ⟨S4096x64x64, .f32⟩
  | .hbm, ⟨20, _⟩ => ⟨S4096x64x64, .f32⟩
  | .hbm, ⟨21, _⟩ => ⟨S_, .f32⟩
  | .hbm, ⟨22, _⟩ => ⟨S64x64, .f32⟩
  | .hbm, ⟨23, _⟩ => ⟨S1x64x64, .f32⟩
  | .hbm, ⟨24, _⟩ => ⟨S4096x64x64, .f32⟩
  | .hbm, ⟨25, _⟩ => ⟨S4096x64x64, .f32⟩
  | .hbm, ⟨26, _⟩ => ⟨S4096x512, .f32⟩
  | .hbm, ⟨27, _⟩ => ⟨S512x512, .f32⟩
  | .hbm, ⟨28, _⟩ => ⟨S4096x512, .f32⟩
  | .hbm, ⟨29, _⟩ => ⟨S512x512, .f32⟩
  | .hbm, ⟨30, _⟩ => ⟨S4096x512, .f32⟩
  | .hbm, ⟨31, _⟩ => ⟨S4096x512, .f32⟩
  | .hbm, ⟨32, _⟩ => ⟨S64x64x4096, .f32⟩
  | .hbm, ⟨33, _⟩ => ⟨S4096x64x64, .f32⟩
  | .hbm, ⟨34, _⟩ => ⟨S4096x64x64, .f32⟩
  | .hbm, ⟨35, _⟩ => ⟨S4096x64x64, .f32⟩
  | .hbm, ⟨36, _⟩ => ⟨S_, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S1x64x64, .f32⟩
  | .hbm, ⟨42, _⟩ => ⟨S4096x64x64, .f32⟩
  | .hbm, ⟨43, _⟩ => ⟨S4096x64x64, .f32⟩
  | .hbm, ⟨44, _⟩ => ⟨S4096x64x64, .f32⟩
  | .hbm, ⟨45, _⟩ => ⟨S_, .f32⟩
  | .hbm, ⟨46, _⟩ => ⟨S64x64, .f32⟩
  | .hbm, ⟨47, _⟩ => ⟨S1x64x64, .f32⟩
  | .hbm, ⟨48, _⟩ => ⟨S4096x64x64, .f32⟩
  | .hbm, ⟨49, _⟩ => ⟨S4096x64x64, .f32⟩
  | .hbm, ⟨50, _⟩ => ⟨S4096x512, .f32⟩
  | .hbm, ⟨51, _⟩ => ⟨S512x512, .f32⟩
  | .hbm, ⟨52, _⟩ => ⟨S4096x512, .f32⟩
  | .hbm, ⟨53, _⟩ => ⟨S512x512, .f32⟩
  | .hbm, ⟨54, _⟩ => ⟨S4096x512, .f32⟩
  | .hbm, ⟨55, _⟩ => ⟨S4096x512, .f32⟩
  | .hbm, ⟨56, _⟩ => ⟨S64x64x4096, .f32⟩
  | .hbm, ⟨57, _⟩ => ⟨S4096x64x64, .f32⟩
  | .hbm, ⟨58, _⟩ => ⟨S4096x64x64, .f32⟩
  | .hbm, ⟨59, _⟩ => ⟨S4096x64x64, .f32⟩
  | .hbm, ⟨60, _⟩ => ⟨S_, .f32⟩
  | .hbm, ⟨61, _⟩ => ⟨S64x64, .f32⟩
  | .hbm, ⟨62, _⟩ => ⟨S_, .f32⟩
  | .hbm, ⟨63, _⟩ => ⟨S64x64, .f32⟩
  | .hbm, ⟨64, _⟩ => ⟨S64x64, .f32⟩
  | .hbm, ⟨65, _⟩ => ⟨S1x64x64, .f32⟩
  | .hbm, ⟨66, _⟩ => ⟨S4096x64x64, .f32⟩
  | .hbm, ⟨67, _⟩ => ⟨S4096x64x64, .f32⟩
  | .hbm, ⟨68, _⟩ => ⟨S4096x64x64, .f32⟩
  | .hbm, ⟨69, _⟩ => ⟨S_, .f32⟩
  | .hbm, ⟨70, _⟩ => ⟨S64x64, .f32⟩
  | .hbm, ⟨71, _⟩ => ⟨S1x64x64, .f32⟩
  | .hbm, ⟨72, _⟩ => ⟨S4096x64x64, .f32⟩
  | .hbm, ⟨73, _⟩ => ⟨S4096x64x64, .f32⟩
  | .hbm, ⟨74, _⟩ => ⟨S4096x512, .f32⟩
  | .hbm, ⟨75, _⟩ => ⟨S512x512, .f32⟩
  | .hbm, ⟨76, _⟩ => ⟨S4096x512, .f32⟩
  | .hbm, ⟨77, _⟩ => ⟨S512x512, .f32⟩
  | .hbm, ⟨78, _⟩ => ⟨S4096x512, .f32⟩
  | .hbm, ⟨79, _⟩ => ⟨S4096x512, .f32⟩
  | .hbm, ⟨80, _⟩ => ⟨S64x64x4096, .f32⟩
  | .hbm, ⟨81, _⟩ => ⟨S4096x64x64, .f32⟩
  | .hbm, ⟨82, _⟩ => ⟨S4096x64x64, .f32⟩
  | .hbm, ⟨83, _⟩ => ⟨S4096x64x64, .f32⟩
  | .hbm, ⟨84, _⟩ => ⟨S_, .f32⟩
  | .hbm, ⟨85, _⟩ => ⟨S64x64, .f32⟩
  | .hbm, ⟨86, _⟩ => ⟨S_, .f32⟩
  | .hbm, ⟨87, _⟩ => ⟨S64x64, .f32⟩
  | .hbm, ⟨88, _⟩ => ⟨S64x64, .f32⟩
  | .hbm, ⟨89, _⟩ => ⟨S1x64x64, .f32⟩
  | .hbm, ⟨90, _⟩ => ⟨S4096x64x64, .f32⟩
  | .hbm, ⟨91, _⟩ => ⟨S4096x64x64, .f32⟩
  | .hbm, ⟨92, _⟩ => ⟨S4096x64x64, .f32⟩
  | .hbm, ⟨93, _⟩ => ⟨S_, .f32⟩
  | .hbm, ⟨94, _⟩ => ⟨S64x64, .f32⟩
  | .hbm, ⟨95, _⟩ => ⟨S1x64x64, .f32⟩
  | .hbm, ⟨96, _⟩ => ⟨S4096x64x64, .f32⟩
  | .hbm, ⟨97, _⟩ => ⟨S4096x64x64, .f32⟩
  | .hbm, ⟨98, _⟩ => ⟨S4096x512, .f32⟩
  | .hbm, ⟨99, _⟩ => ⟨S512x512, .f32⟩
  | .hbm, ⟨100, _⟩ => ⟨S4096x512, .f32⟩
  | .hbm, ⟨101, _⟩ => ⟨S512x512, .f32⟩
  | .hbm, ⟨102, _⟩ => ⟨S4096x512, .f32⟩
  | .hbm, ⟨103, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]

class Facts₀ : Prop where
  transposes_S64x64x4096_S4096x64x64_2_1_0 : S64x64x4096.Transposes [2, 1, 0] S4096x64x64
  bcast_S_S4096x64x64 : S_.BroadcastsInDim S4096x64x64 (![] : Fin 0 → Fin S4096x64x64.rank)
  reducesTo_S4096x64x64_S64x64_d0 : S4096x64x64.ReducesTo [0] S64x64
  h_S_ : 0 < S_.numel
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S4096x64x64_0_1_2 : S1x64x64.BroadcastsInDim S4096x64x64 (![0, 1, 2] : Fin 3 → Fin S4096x64x64.rank)
  transposes_S512x512_S512x512_1_0 : S512x512.Transposes [1, 0] S512x512
  dot_S64x64x512_S4096x512_S64x64x4096_2_1_01_0_n_n_wf : DotDims.WF S64x64x512 S4096x512 S64x64x4096 [2] [1] [0, 1] [0] [] []
  dot_S4096x64x64_S64x64x512_S4096x512_21_01_0_2_n_n_wf : DotDims.WF S4096x64x64 S64x64x512 S4096x512 [2, 1] [0, 1] [0] [2] [] []
  dot_S4096x512_S512x512_S4096x512_1_0_0_1_n_n_wf : DotDims.WF S4096x512 S512x512 S4096x512 [1] [0] [0] [1] [] []

variable [Facts₀]

def dot_S64x64x512_S4096x512_S64x64x4096_2_1_01_0_n_n : DotDims S64x64x512 S4096x512 S64x64x4096 where
  lhsContracting := [2]
  rhsContracting := [1]
  lhsNonContracting := [0, 1]
  rhsNonContracting := [0]
  lhsBatch := []
  rhsBatch := []
  wf := dot_S64x64x512_S4096x512_S64x64x4096_2_1_01_0_n_n_wf
def dot_S4096x64x64_S64x64x512_S4096x512_21_01_0_2_n_n : DotDims S4096x64x64 S64x64x512 S4096x512 where
  lhsContracting := [2, 1]
  rhsContracting := [0, 1]
  lhsNonContracting := [0]
  rhsNonContracting := [2]
  lhsBatch := []
  rhsBatch := []
  wf := dot_S4096x64x64_S64x64x512_S4096x512_21_01_0_2_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.Spec.lean ====
/-
  The function both programs compute: one linear layer with a residual,

      out[n, d] = (∑ v, b[n, v] · W[d, v]) + q[n, d]

  over q, b : [4096, 512] and W : [512, 512] (the weight stored [out, in], so its LAST axis is contracted), on the
  extended reals. Nothing else of the arguments enters: the attention branch of the source loop is overwritten before
  it is read, and every pass of the loop recomputes this same value from b, W and the fixed residual q.
-/
import Idealize.ShloMosaic.PureOps.Ideal
import Idealize.ShloMosaic.Lib.ValueIdx

noncomputable section

open scoped BigOperators

namespace Cert.ResidualLinear

open Idealize.ShloMosaic Idealize.ShloMosaic.ValueIdx

/-- The residual linear layer, entry by entry: row n of b against row d of W, plus q[n, d]. -/
def G (q b : FVec Ideal ⟨2, ![4096, 512]⟩ .f32) (w : FVec Ideal ⟨2, ![512, 512]⟩ .f32) : FVec Ideal ⟨2, ![4096, 512]⟩ .f32 :=
  fun i => (∑ k : Fin 512, b (ix2 (i 0) k) * w (ix2 (i 1) k)) + q i

theorem G_apply (q b : FVec Ideal ⟨2, ![4096, 512]⟩ .f32) (w : FVec Ideal ⟨2, ![512, 512]⟩ .f32) (i : (⟨2, ![4096, 512]⟩ : Shape).Idx) :
    G q b w i = (∑ k : Fin 512, b (ix2 (i 0) k) * w (ix2 (i 1) k)) + q i := rfl

end Cert.ResidualLinear

end
-- ==== Proof.RefValue.lean ====
/-
  The reference's result is the residual linear layer `G`.

  The reference's last three operations are W transposed, the plain product b · Wᵀ (contracting b's last axis with the
  transposed matrix's first), and the sum with q. Read at (n, d): the product is ∑ k, b[n, k] · Wᵀ[k, d], and
  Wᵀ[k, d] = W[d, k], so the entry is (∑ k, b[n, k] · W[d, k]) + q[n, d].
-/
import proofs.«426530_j70849780515288_3_alg».proof.Proof.Gen.ReferenceIdeal.Read
import proofs.«426530_j70849780515288_3_alg».proof.Proof.Spec

noncomputable section

open scoped BigOperators

namespace Cert.ReferenceIdeal.RefValue

open Cert.ReferenceIdeal Cert.ReferenceIdeal.Gen Cert.ReferenceIdeal.Read Cert.ResidualLinear
open Idealize.ShloMosaic Idealize.ShloMosaic.ValueIdx

/-- The left factor of the k-th product at output index i sits at (i₀, k). -/
theorem lidx_eq (i : S4096x512.Idx) (k : Fin 512) : lidx_main_v83 i k = ix2 (i 0) k :=
  funext fun a => by match a with | ⟨0, _⟩ => rfl | ⟨1, _⟩ => rfl

/-- The right factor is read from the transposed matrix at (k, i₁), that is from W at (i₁, k). -/
theorem ridx_eq (i : S4096x512.Idx) (k : Fin 512) : idx_main_v82 (ridx_main_v83 i k) = ix2 (i 1) k :=
  funext fun a => by match a with | ⟨0, _⟩ => rfl | ⟨1, _⟩ => rfl

/-- The reference's result, as the last stage of its run, is `G` of the arguments q, b and W. -/
theorem result_eq (q b : FVec Ideal S4096x512 .f32) (w : FVec Ideal S512x512 .f32) :
    val_main_v84 (F := Ideal) q b w = G q b w := by
  funext i
  rw [val_main_v84_apply, val_main_v83_apply, G_apply]
  simp only [val_main_v82_apply, lidx_eq, ridx_eq]
  rfl

end Cert.ReferenceIdeal.RefValue

end
-- ==== Proof.LibDotNT.lean ====
/-
  A·Bᵀ read at an index, at the ideal values.

  For the dimension numbers "contract the LAST axis of both rank-2 operands" — an M×K left operand against an N×K right
  operand, `DotDims.transposedRhs M K N`, the form a kernel writes when it multiplies by a weight matrix stored
  [out, in] without transposing it — the (a, b) entry of the product is the sum over the contracted coordinate c of
  A[a, c] · B[b, c]. Stated for the kernel's `tpu.matmul` into the zero accumulator (`matmul_abT_zero_apply`) and for
  the host's `dot_general` (`dotGeneral_abT_apply`), each for ANY record equal to `DotDims.transposedRhs M K N` (a printed
  program's own record is one by `rfl`), and once more with the operand entries named by the caller
  (`matmul_abT_zero_apply_of_eq`), for operands that are themselves format changes or re-layings of loaded blocks.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat}

/-- The left operand's index at output (a, b) and contraction position c is (a, c): the free axis follows the output's
    row, the contracted axis the position. -/
theorem lhsIdx_transposedRhs (a : Fin M) (b : Fin N) (c : Fin K) :
    (DotDims.transposedRhs M K N).lhsIdx (ix2 a b) ((contrEquiv1 (DotDims.transposedRhs M K N) K rfl rfl).symm c) = ix2 a c := by
  have hc := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact hc

/-- The right operand's index there is (b, c): its free axis follows the output's COLUMN, and it too is contracted on its
    last axis. -/
theorem rhsIdx_transposedRhs (a : Fin M) (b : Fin N) (c : Fin K) :
    (DotDims.transposedRhs M K N).rhsIdx (ix2 a b) ((contrEquiv1 (DotDims.transposedRhs M K N) K rfl rfl).symm c) = ix2 b c := by
  have hc := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact hc

/-- A `tpu.matmul` with these dimension numbers into the zero accumulator, read at (a, b): ∑ c, A[a, c] · B[b, c]. -/
theorem matmul_abT_zero_apply {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    matmul d prec A B (constant ⟨2, ![M, N]⟩ .f32 0x00000000#32) (ix2 a b) = ∑ c : Fin K, A (ix2 a c) * B (ix2 b c) := by
  subst hd
  show FloatOps.matmul _ prec A B _ (ix2 a b) = _
  rw [Ideal.matmul_constant_zero_apply, ← Equiv.sum_comp (contrEquiv1 (DotDims.transposedRhs M K N) K rfl rfl).symm]
  refine Finset.sum_congr rfl fun c _ => ?_
  rw [lhsIdx_transposedRhs, rhsIdx_transposedRhs]

/-- The same with the operands' entries named: whatever A and B are known to be at (a, c) and (b, c). -/
theorem matmul_abT_zero_apply_of_eq {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N)
    (L R : Fin K → EReal) (hl : ∀ c, A (ix2 a c) = L c) (hr : ∀ c, B (ix2 b c) = R c) :
    matmul d prec A B (constant ⟨2, ![M, N]⟩ .f32 0x00000000#32) (ix2 a b) = ∑ c : Fin K, L c * R c :=
  (matmul_abT_zero_apply d hd prec A B a b).trans (Finset.sum_congr rfl fun c _ => by rw [hl c, hr c])

/-- The host's `dot_general` with these dimension numbers, read at (a, b): the same sum. -/
theorem dotGeneral_abT_apply {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    Host.dotGeneral d prec A B (ix2 a b) = ∑ c : Fin K, A (ix2 a c) * B (ix2 b c) := by
  subst hd
  show FloatOps.dotGeneral _ prec _ A B (ix2 a b) = _
  rw [Ideal.dotGeneral_apply, ← Equiv.sum_comp (contrEquiv1 (DotDims.transposedRhs M K N) K rfl rfl).symm]
  refine Finset.sum_congr rfl fun c _ => ?_
  rw [lhsIdx_transposedRhs, rhsIdx_transposedRhs]

end Idealize.ShloMosaic.DotNT

end
-- ==== Proof.KernelValue.lean ====
/-
  What the kernel's output array holds after the run: the residual linear layer `G`.

  The grid has four points; point t handles rows 1024·t … 1024·t + 1023. At that point the body loads the block of b
  (those rows, all 512 columns), the whole of W (rounded to bf16 by the host before the call — the identity on the
  extended reals), and the block of q; multiplies b's block by W contracting the LAST axis of both; adds q's block; and
  stores the [1024, 512] result, which the pipeline writes back to the same rows of the output. So row r of the output
  is written by point r / 1024, and entry (r, d) ends at (∑ k, b[r, k] · W[d, k]) + q[r, d].
-/
import proofs.«426530_j70849780515288_3_alg».proof.Proof.Gen.KernelIdeal.Value
import proofs.«426530_j70849780515288_3_alg».proof.Proof.Spec
import proofs.«426530_j70849780515288_3_alg».proof.Proof.LibDotNT
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.KernelIdeal.Hand

open Cert.KernelIdeal Cert.KernelIdeal.Gen Cert.KernelIdeal.Value Cert.ResidualLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The body's arithmetic at one entry -/

/-- Entry (p, d) of what the body stores: row p of the loaded b-block against row d of the loaded W, plus the q-block's
    entry. The change of format of the left operand and the identity re-laying of the right one read through. -/
theorem pay_apply (x0 : Vec Ideal S1024x512 .f32) (x1 : Vec Ideal S512x512 .bf16) (x2 : Vec Ideal S1024x512 .f32)
    (p : Fin 1024) (d : Fin 512) :
    k0_pay1 (F := Ideal) x0 x1 x2 (ix2 p d) = (∑ k : Fin 512, x0 (ix2 p k) * x1 (ix2 d k)) + x2 (ix2 p d) :=
  congrArg (fun z : EReal => z + x2 (ix2 p d))
    (DotNT.matmul_abT_zero_apply_of_eq dot_S1024x512_S512x512_S1024x512_1_1_0_0_n_n rfl none
      (truncf .bf16 x0 bitsLt_bf16_f32) (shapeCast S512x512 x1 shapeCasts_S512x512_S512x512) p d
      (fun k => x0 (ix2 p k)) (fun k => x1 (ix2 d k)) (fun _ => rfl)
      (fun k => congrFun (shapeCast_self x1 shapeCasts_S512x512_S512x512) (ix2 d k)))

/-! ## The windows' blocks as rows of the arguments -/

/-- The array the second window stages is W after the host's change of format. -/
theorem V_w (c : Dev nD) :
    (V m c main_v0 : S512x512.Idx → EReal) = truncf (F := Ideal) .bf16 (m ((c : Thread nD τ).loc main_arg5)) bitsLt_bf16_f32 := by
  dsimp only [Gen.V, Gen.hostOps0]; after_results

/-- The printed index maps over the four points: the b-, q- and output windows sit at block row t, column block 0; the
    W window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 4 := lt_of_lt_of_eq t.isLt N_0

/-- The array row that row p of point t's blocks is. -/
def row (t : Fin cfg0.N) (p : Fin 1024) : Fin 4096 :=
  ⟨1024 * t.val + p.val, by have := point_lt t; have := p.isLt; omega⟩

/-- The output block's entry (p, d) at point t is the array's entry (row t p, d). -/
theorem emb_out (t : Fin cfg0.N) (p : Fin 1024) (d : Fin 512) :
    ((cfg0.win 3).blk t).view.emb (ix2 p d) = (ix2 (row t p) d : S4096x512.Idx) := by
  obtain ⟨-, -, -, -, -, -, e0, e1⟩ := idx_facts t
  funext a; apply Fin.ext
  match a with
  | ⟨0, _⟩ => show win0_3.index t (0 : Fin 2) * 1024 + 1 * p.val = 1024 * t.val + p.val; omega
  | ⟨1, _⟩ => show win0_3.index t (1 : Fin 2) * 512 + 1 * d.val = d.val; omega

/-- The b-block at point t: rows 1024·t … of b. -/
theorem blk_b (c : Dev nD) (t : Fin cfg0.N) (p : Fin 1024) (k : Fin 512) :
    (iblk m c 0 t : Vec Ideal S1024x512 .f32) (ix2 p k)
      = (m ((c : Thread nD τ).loc main_arg3) : S4096x512.Idx → EReal) (ix2 (row t p) k) := by
  obtain ⟨e0, e1, -⟩ := idx_facts t
  unfold iblk
  rw [View.read_apply]
  show V m c main_arg3 _ = m (c.tc.loc main_arg3) _
  rw [V_main_arg3]
  congr 1
  funext a; apply Fin.ext
  match a with
  | ⟨0, _⟩ => show win0_0.index t (0 : Fin 2) * 1024 + 1 * p.val = 1024 * t.val + p.val; omega
  | ⟨1, _⟩ => show win0_0.index t (1 : Fin 2) * 512 + 1 * k.val = k.val; omega

/-- The W-block at every point: the whole of W. -/
theorem blk_w (c : Dev nD) (t : Fin cfg0.N) (d k : Fin 512) :
    (iblk m c 1 t : Vec Ideal S512x512 .bf16) (ix2 d k)
      = (m ((c : Thread nD τ).loc main_arg5) : S512x512.Idx → EReal) (ix2 d k) := by
  obtain ⟨-, -, e0, e1, -⟩ := idx_facts t
  unfold iblk
  rw [View.read_apply]
  show (V m c main_v0 : S512x512.Idx → EReal) _ = m (c.tc.loc main_arg5) _
  rw [V_w]
  show m (c.tc.loc main_arg5) _ = m (c.tc.loc main_arg5) _
  congr 1
  funext a; apply Fin.ext
  match a with
  | ⟨0, _⟩ => show win0_1.index t (0 : Fin 2) * 512 + 1 * d.val = d.val; omega
  | ⟨1, _⟩ => show win0_1.index t (1 : Fin 2) * 512 + 1 * k.val = k.val; omega

/-- The q-block at point t: rows 1024·t … of q. -/
theorem blk_q (c : Dev nD) (t : Fin cfg0.N) (p : Fin 1024) (d : Fin 512) :
    (iblk m c 2 t : Vec Ideal S1024x512 .f32) (ix2 p d)
      = (m ((c : Thread nD τ).loc main_arg0) : S4096x512.Idx → EReal) (ix2 (row t p) d) := by
  obtain ⟨-, -, -, -, e0, e1, -⟩ := idx_facts t
  unfold iblk
  rw [View.read_apply]
  show V m c main_arg0 _ = m (c.tc.loc main_arg0) _
  rw [V_main_arg0]
  congr 1
  funext a; apply Fin.ext
  match a with
  | ⟨0, _⟩ => show win0_2.index t (0 : Fin 2) * 1024 + 1 * p.val = 1024 * t.val + p.val; omega
  | ⟨1, _⟩ => show win0_2.index t (1 : Fin 2) * 512 + 1 * d.val = d.val; omega

/-! ## What a point writes back, the cover, the array -/

/-- The layer over the arguments as launched on core c. -/
abbrev result (c : Dev nD) : FVec Ideal ⟨2, ![4096, 512]⟩ .f32 :=
  G (m ((c : Thread nD τ).loc main_arg0)) (m ((c : Thread nD τ).loc main_arg3)) (m ((c : Thread nD τ).loc main_arg5))

/-- Entry j of what the body stores at point t is the layer's entry at the array index the output block puts j at. -/
theorem point_value (c : Dev nD) (t : Fin cfg0.N) (j : S1024x512.Idx) :
    k0_pay1 (F := Ideal) (iblk m c 0 t) (iblk m c 1 t) (iblk m c 2 t) j = result m c (((cfg0.win 3).blk t).view.emb j) := by
  obtain ⟨p, d, rfl⟩ : ∃ (p : Fin 1024) (d : Fin 512), j = ix2 p d := ⟨j 0, j 1, eq_ix2 j⟩
  refine (pay_apply (iblk m c 0 t) (iblk m c 1 t) (iblk m c 2 t) p d).trans ?_
  rw [emb_out t p d]
  show _ = G _ _ _ _
  rw [G_apply, blk_q m c t p d]
  refine congrArg (fun z : EReal => z + _) (Finset.sum_congr rfl fun k _ => ?_)
  rw [blk_b m c t p k, blk_w m c t d k]

/-- WHAT POINT t WRITES BACK is its block of the layer. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S1024x512) hz, View.ld_unit_zero (S := S512x512) hz]
  funext j
  exact point_value m c t j

/-- An index of the output array is in point t's block iff each coordinate is in the block's range on its axis. -/
theorem mem_blk (t : Fin cfg0.N) (i : S4096x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every index of the output array is in the block of the point its row falls to, and every point writes back. -/
theorem cover (i : S4096x512.Idx) : ∃ t : Fin cfg0.N, (cfg0.win 3).flush t = true ∧ i ∈ ((cfg0.win 3).blk t).view.set := by
  have hi0 : (i 0).val < 4096 := (i 0).isLt
  have hi1 : (i 1).val < 512 := (i 1).isLt
  have ht : (i 0).val / 1024 < cfg0.N := by rw [show cfg0.N = 4 from N_0]; omega
  obtain ⟨-, -, -, -, -, -, e0, e1⟩ := idx_facts ⟨(i 0).val / 1024, ht⟩
  have e0' : win0_3.index ⟨(i 0).val / 1024, ht⟩ (0 : Fin 2) = (i 0).val / 1024 := e0
  refine ⟨⟨(i 0).val / 1024, ht⟩, flush0_3 _, ?_⟩
  rw [mem_blk]
  intro a
  match a with
  | ⟨0, _⟩ => show win0_3.index ⟨(i 0).val / 1024, ht⟩ (0 : Fin 2) * 1024 ≤ (i 0).val ∧ (i 0).val < win0_3.index ⟨(i 0).val / 1024, ht⟩ (0 : Fin 2) * 1024 + 1024; omega
  | ⟨1, _⟩ => show win0_3.index ⟨(i 0).val / 1024, ht⟩ (1 : Fin 2) * 512 ≤ (i 1).val ∧ (i 1).val < win0_3.index ⟨(i 0).val / 1024, ht⟩ (1 : Fin 2) * 512 + 512; omega

/-- THE OUTPUT ARRAY after the run is the layer of the arguments. -/
theorem final (c : Dev nD) : (dats m 0 c).arrAt 3 cfg0.N = result m c :=
  (dats m 0 c).arrAt_eq_of_cover 3 (result m c) (fun t _ => flushed_eq m c t) cover

/-- The kernel's run, read: the output array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Hand

end
-- ==== Proof.lean ====
/-
  The kernel computes one linear layer with a residual, out = b · Wᵀ + q, as a pipelined matrix product over four row
  blocks; the reference runs a four-pass loop whose every pass ends by overwriting its value with that same
  b · Wᵀ + q (the attention branch before it is never read, and the residual q never changes). On the extended reals the
  two are one function of the arguments, entry by entry:

      out[n, d] = (∑ v, b[n, v] · W[d, v]) + q[n, d].

  Kernel side: the rounding of W and of b's block to bf16 is the identity on the extended reals, the product
  contracts the last axis of both operands, and the four blocks tile the output's rows (Proof/KernelValue.lean).
  Reference side: the product contracts b's last axis with the first axis of W transposed, and Wᵀ[v, d] = W[d, v]
  (Proof/RefValue.lean). No algebraic law beyond reading both sums at an index is needed — the two sums have the same
  terms in the same order — so the inputs' finiteness is never used. The idealization rewrote nothing, so the
  kernel's preservation claim is trivial.
-/
import proofs.«426530_j70849780515288_3_alg».proof.Defs
import proofs.«426530_j70849780515288_3_alg».proof.Proof.Gen.Kernel
import proofs.«426530_j70849780515288_3_alg».proof.Proof.Gen.Kernel.Skeleton
import proofs.«426530_j70849780515288_3_alg».proof.Proof.Gen.Kernel.Launch
import proofs.«426530_j70849780515288_3_alg».proof.Proof.Gen.Kernel.Points
import proofs.«426530_j70849780515288_3_alg».proof.Proof.Gen.Kernel.Frame
import proofs.«426530_j70849780515288_3_alg».proof.Proof.Gen.KernelIdeal
import proofs.«426530_j70849780515288_3_alg».proof.Proof.Gen.KernelIdeal.Skeleton
import proofs.«426530_j70849780515288_3_alg».proof.Proof.Gen.KernelIdeal.Launch
import proofs.«426530_j70849780515288_3_alg».proof.Proof.Gen.KernelIdeal.Points
import proofs.«426530_j70849780515288_3_alg».proof.Proof.Gen.KernelIdeal.Frame
import proofs.«426530_j70849780515288_3_alg».proof.Proof.Gen.ReferenceIdeal
import proofs.«426530_j70849780515288_3_alg».proof.Proof.Gen.Pre_finite_inputs
import proofs.«426530_j70849780515288_3_alg».proof.Proof.Gen.KernelIdeal.Value
import proofs.«426530_j70849780515288_3_alg».proof.Proof.Gen.ReferenceIdeal.Run
import proofs.«426530_j70849780515288_3_alg».proof.Proof.Gen.ReferenceIdeal.Read
import proofs.«426530_j70849780515288_3_alg».proof.Proof.Spec
import proofs.«426530_j70849780515288_3_alg».proof.Proof.RefValue
import proofs.«426530_j70849780515288_3_alg».proof.Proof.KernelValue
import Idealize.ShloMosaic.Adequacy
import Idealize.ShloMosaic.Init

noncomputable section

namespace Cert.Proof

open Idealize.ShloMosaic Idealize.SL.Sem Cert.Kernel

/-- The kernel as printed runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's output array and the reference's result both end at the
    residual linear layer of q, b and W. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, Cert.ReferenceIdeal.RefValue.result_eq,
    (hagree c).1, (hagree c).2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
